-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x128 : Shape := ⟨2, ![800000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S256x128 .f32) (main_arg6 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S800000x128 .f32) (main_arg3 : FVec F S256x256 .f32) (main_arg4 : FVec F S256 .f32) (main_arg5 : FVec F S256x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg2
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S800000x128 : Shape := ⟨2, ![800000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000 : Shape := ⟨1, ![50000]⟩
abbrev S50000x1 : Shape := ⟨2, ![50000, 1]⟩
abbrev S128x256 : Shape := ⟨2, ![128, 256]⟩
abbrev S1x256 : Shape := ⟨2, ![1, 256]⟩
abbrev S1x128 : Shape := ⟨2, ![1, 128]⟩
abbrev S2000x128 : Shape := ⟨2, ![2000, 128]⟩
abbrev S2000x256 : Shape := ⟨2, ![2000, 256]⟩

abbrev nBuf : Space → Nat
  | .hbm => 30
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x128, .f32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S_, .f32⟩
  | .hbm, ⟨10, _⟩ => ⟨S50000x128, .f32⟩
  | .hbm, ⟨11, _⟩ => ⟨S800000x1, .i32⟩
  | .hbm, ⟨12, _⟩ => ⟨S50000x128, .f32⟩
  | .hbm, ⟨13, _⟩ => ⟨S_, .f32⟩
  | .hbm, ⟨14, _⟩ => ⟨S800000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000x1, .f32⟩
  | .hbm, ⟨23, _⟩ => ⟨S50000x128, .f32⟩
  | .hbm, ⟨24, _⟩ => ⟨S50000x128, .f32⟩
  | .hbm, ⟨25, _⟩ => ⟨S128x256, .f32⟩
  | .hbm, ⟨26, _⟩ => ⟨S128x256, .f32⟩
  | .hbm, ⟨27, _⟩ => ⟨S1x256, .f32⟩
  | .hbm, ⟨28, _⟩ => ⟨S1x128, .f32⟩
  | .hbm, ⟨29, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S128x256, .f32⟩
  | .local _ .vmem, ⟨6, _⟩ => ⟨S256x128, .f32⟩
  | .local _ .vmem, ⟨7, _⟩ => ⟨S1x256, .f32⟩
  | .local _ .vmem, ⟨8, _⟩ => ⟨S1x128, .f32⟩
  | .local _ .vmem, ⟨9, _⟩ => ⟨S2000x128, .f32⟩
  | .local _ .vmem, ⟨10, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x800000_S1x800000_1_0 : S2x800000.Slices ![1, 0] S1x800000
  shapeCasts_S1x800000_S800000 : S1x800000.ShapeCasts S800000
  bcast_S_S50000x128 : S_.BroadcastsInDim S50000x128 (![] : Fin 0 → Fin S50000x128.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S256x256_S128x256_0_0 : S256x256.Slices ![0, 0] S128x256
  slices_S256x256_S128x256_128_0 : S256x256.Slices ![128, 0] S128x256
  shapeCasts_S256_S1x256 : S256.ShapeCasts S1x256
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S50000x128.size a
  hwx0_7 : ∀ i : grid0.Coords, EltTy.bits .f32 = 32 ∨ (Rect.block (s := S50000x128) S2000x128.size (cc0_transform_7 i) (hinb0_7 i)).WholeWords (EltTy.packing .f32)

variable [Facts₀]

def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x128 : Shape := ⟨2, ![800000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S1x128 : Shape := ⟨2, ![1, 128]⟩

abbrev nBuf : Space → Nat
  | .hbm => 37
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x128, .f32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S_, .f32⟩
  | .hbm, ⟨10, _⟩ => ⟨S50000x128, .f32⟩
  | .hbm, ⟨11, _⟩ => ⟨S800000x1, .i32⟩
  | .hbm, ⟨12, _⟩ => ⟨S50000x128, .f32⟩
  | .hbm, ⟨13, _⟩ => ⟨S_, .f32⟩
  | .hbm, ⟨14, _⟩ => ⟨S800000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000x1, .f32⟩
  | .hbm, ⟨23, _⟩ => ⟨S50000x128, .f32⟩
  | .hbm, ⟨24, _⟩ => ⟨S50000x128, .f32⟩
  | .hbm, ⟨25, _⟩ => ⟨S50000x256, .f32⟩
  | .hbm, ⟨26, _⟩ => ⟨S50000x256, .f32⟩
  | .hbm, ⟨27, _⟩ => ⟨S1x256, .f32⟩
  | .hbm, ⟨28, _⟩ => ⟨S50000x256, .f32⟩
  | .hbm, ⟨29, _⟩ => ⟨S50000x256, .f32⟩
  | .hbm, ⟨30, _⟩ => ⟨S_, .f32⟩
  | .hbm, ⟨31, _⟩ => ⟨S50000x256, .f32⟩
  | .hbm, ⟨32, _⟩ => ⟨S50000x256, .f32⟩
  | .hbm, ⟨33, _⟩ => ⟨S50000x128, .f32⟩
  | .hbm, ⟨34, _⟩ => ⟨S1x128, .f32⟩
  | .hbm, ⟨35, _⟩ => ⟨S50000x128, .f32⟩
  | .hbm, ⟨36, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_cst : Ref sig .tc := ⟨.hbm, 30, rfl⟩
abbrev main_call0_v0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  slices_S2x800000_S1x800000_1_0 : S2x800000.Slices ![1, 0] S1x800000
  shapeCasts_S1x800000_S800000 : S1x800000.ShapeCasts S800000
  bcast_S_S50000x128 : S_.BroadcastsInDim S50000x128 (![] : Fin 0 → Fin S50000x128.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []

variable [Facts₀]

def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.NodeUpdate.lean ====
/-
  One node's update in a message-passing layer, on the extended reals.

  A node carries its own 128 features `xr` and the mean `ar` of the 128 features of its incoming edges. The update
  is a two-layer perceptron of the 256 numbers `(xr, ar)`: hidden unit `k` is
  `max (Σ_a xr a · w a k + Σ_a ar a · w (128 + a) k + b k) 0` — the rows `0 … 127` of the weight matrix `w` meet the node's
  own features, the rows `128 … 255` the aggregated ones — and output unit `j` is `Σ_k h k · w' k j + b' j`.

  The one law of this file (`hidden_of_joined`): the two half sums are ONE sum over the 256 positions of the joined
  vector. It is a re-indexing of a finite sum in a commutative monoid, so it holds for every extended real, the
  infinities included; nothing about finiteness is assumed anywhere.

  `update` is the layer on whole arrays, index by index: entry `(r, j)` is output unit `j` of node `r`.
-/
import Idealize.ShloMosaic.Lib.ValueIdx
import Mathlib.Algebra.BigOperators.Fin

noncomputable section

open scoped BigOperators
open Idealize.ShloMosaic Idealize.ShloMosaic.ValueIdx

namespace Cert.NodeUpdate

/-- Hidden unit `k` of a node with own features `xr` and aggregated features `ar`: the upper half of `w`'s rows
    weighs `xr`, the lower half `ar`; then the bias, then the positive part. -/
def hidden (xr ar : Fin 128 → EReal) (w : Fin 256 → Fin 256 → EReal) (b : Fin 256 → EReal) (k : Fin 256) : EReal :=
  max ((∑ a : Fin 128, xr a * w (Fin.castAdd 128 a) k + ∑ a : Fin 128, ar a * w (Fin.natAdd 128 a) k) + b k) 0

/-- Output unit `j` from the hidden units `h`. -/
def output (h : Fin 256 → EReal) (w : Fin 256 → Fin 128 → EReal) (b : Fin 128 → EReal) (j : Fin 128) : EReal :=
  (∑ k : Fin 256, h k * w k j) + b j

/-- The hidden unit computed from the JOINED vector `cat = (xr, ar)` by one sum over its 256 positions: a sum over
    `Fin (128 + 128)` is the sum over the first 128 positions plus the sum over the last 128. -/
theorem hidden_of_joined (xr ar : Fin 128 → EReal) (w : Fin 256 → Fin 256 → EReal) (b : Fin 256 → EReal)
    (cat : Fin 256 → EReal) (hl : ∀ a : Fin 128, cat (Fin.castAdd 128 a) = xr a)
    (hr : ∀ a : Fin 128, cat (Fin.natAdd 128 a) = ar a) (k : Fin 256) :
    max ((∑ a : Fin 256, cat a * w a k) + b k) 0 = hidden xr ar w b k := by
  unfold hidden
  have split : (∑ a : Fin 256, cat a * w a k)
      = ∑ a : Fin 128, cat (Fin.castAdd 128 a) * w (Fin.castAdd 128 a) k
        + ∑ a : Fin 128, cat (Fin.natAdd 128 a) * w (Fin.natAdd 128 a) k :=
    Fin.sum_univ_add (fun a : Fin (128 + 128) => cat a * w a k)
  rw [split]
  simp only [hl, hr]

/-- The layer on whole arrays: entry `(r, j)` of the result is output unit `j` of node `r`, whose own features are row
    `r` of `x` and whose aggregated features are row `r` of `agg`. -/
def update (x agg : (⟨2, ![50000, 128]⟩ : Shape).Idx → EReal) (w1 : (⟨2, ![256, 256]⟩ : Shape).Idx → EReal)
    (b1 : (⟨1, ![256]⟩ : Shape).Idx → EReal) (w2 : (⟨2, ![256, 128]⟩ : Shape).Idx → EReal)
    (b2 : (⟨1, ![128]⟩ : Shape).Idx → EReal) : (⟨2, ![50000, 128]⟩ : Shape).Idx → EReal :=
  fun i => output
    (hidden (fun a => x (ix2 (i 0) a)) (fun a => agg (ix2 (i 0) a)) (fun a k => w1 (ix2 a k)) (fun k => b1 (ix1 k)))
    (fun k j => w2 (ix2 k j)) (fun j => b2 (ix1 j)) (i 1)

end Cert.NodeUpdate

end
-- ==== Proof.TileBody.lean ====
/-
  What the kernel body computes for one tile of 2000 nodes, read at an entry.

  The body loads the tile's 2000 rows of node features `v0` and of aggregated edge features `v2`, the two halves
  `v5`, `v8` of the first weight matrix (each 128 × 256), the bias rows `v14` (1 × 256) and `v24` (1 × 128) and the second
  weight matrix `v21` (256 × 128), and stores

    (max ((v0 · v5 + v2 · v8) + rows of v14) 0) · v21 + rows of v24.

  On the extended reals a change of float format is the identity and a product accumulated into the zero array is
  the plain sum over the contracted axis, so entry `(p, q)` of the stored tile is output unit `q` of a perceptron whose
  hidden unit `k` is `max ((Σ_a v0 (p, a) · v5 (a, k) + Σ_a v2 (p, a) · v8 (a, k)) + v14 (0, k)) 0`: the statement of
  `tile_apply`. Nothing here depends on where the tile sits in the array.
-/
import proofs.«135868_j62921270886987_1_alg».proof.Proof.Gen.KernelIdeal.Skeleton
import proofs.«135868_j62921270886987_1_alg».proof.Proof.NodeUpdate
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Tile

open Cert.KernelIdeal Cert.KernelIdeal.Gen Idealize.ShloMosaic Idealize.ShloMosaic.ValueIdx

/-! ## The first layer's product: [2000, 128] · [128, 256], axis 1 of the left against axis 0 of the right -/

theorem lhs_first_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_first_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhs_first_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhs_first_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- Entry `(p, k)` of the product of a tile with a half of the first weight matrix, accumulated into zero, is the sum
    over the 128 features of row `p` times column `k`. -/
theorem first_product_apply (l : FVec Ideal S2000x128 .bf16) (r : FVec Ideal S128x256 .bf16) (p : Fin 2000) (k : Fin 256) :
    matmul dot_S2000x128_S128x256_S2000x256_1_0_0_1_n_n none l r (constant (F := Ideal) S2000x256 .f32 0x00000000#32) (ix2 p k)
      = ∑ a : Fin 128, l (ix2 p a) * r (ix2 a k) := by
  simp only [matmul]
  rw [Ideal.matmul_constant_zero_apply, ← Equiv.sum_comp (contrEquiv1 dot_S2000x128_S128x256_S2000x256_1_0_0_1_n_n 128 rfl rfl).symm]
  refine Finset.sum_congr rfl fun a _ => ?_
  have ha := contrEquiv1_symm_val dot_S2000x128_S128x256_S2000x256_1_0_0_1_n_n 128 rfl rfl a
  have el : dot_S2000x128_S128x256_S2000x256_1_0_0_1_n_n.lhsIdx (ix2 p k) ((contrEquiv1 dot_S2000x128_S128x256_S2000x256_1_0_0_1_n_n 128 rfl rfl).symm a) = ix2 p a := funext fun ax => Fin.ext (by
    match ax with
    | ⟨0, _⟩ => exact lhs_first_0 _ _
    | ⟨1, _⟩ => exact (lhs_first_1 _ _).trans ha)
  have er : dot_S2000x128_S128x256_S2000x256_1_0_0_1_n_n.rhsIdx (ix2 p k) ((contrEquiv1 dot_S2000x128_S128x256_S2000x256_1_0_0_1_n_n 128 rfl rfl).symm a) = ix2 a k := funext fun ax => Fin.ext (by
    match ax with
    | ⟨0, _⟩ => exact (rhs_first_0 _ _).trans ha
    | ⟨1, _⟩ => exact rhs_first_1 _ _)
  rw [el, er]

/-! ## The second layer's product: [2000, 256] · [256, 128] -/

theorem lhs_second_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs_second_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem rhs_second_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem rhs_second_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- Entry `(p, q)` of the product of the tile's hidden units with the second weight matrix, accumulated into zero,
    is the sum over the 256 hidden units of row `p` times column `q`. -/
theorem second_product_apply (l : FVec Ideal S2000x256 .bf16) (r : FVec Ideal S256x128 .bf16) (p : Fin 2000) (q : Fin 128) :
    matmul dot_S2000x256_S256x128_S2000x128_1_0_0_1_n_n none l r (constant (F := Ideal) S2000x128 .f32 0x00000000#32) (ix2 p q)
      = ∑ k : Fin 256, l (ix2 p k) * r (ix2 k q) := by
  simp only [matmul]
  rw [Ideal.matmul_constant_zero_apply, ← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 p q) ((contrEquiv1 dot_S2000x256_S256x128_S2000x128_1_0_0_1_n_n 256 rfl rfl).symm k) = ix2 p k := funext fun ax => Fin.ext (by
    match ax with
    | ⟨0, _⟩ => exact lhs_second_0 _ _
    | ⟨1, _⟩ => exact (lhs_second_1 _ _).trans hk)
  have er : dot_S2000x256_S256x128_S2000x128_1_0_0_1_n_n.rhsIdx (ix2 p q) ((contrEquiv1 dot_S2000x256_S256x128_S2000x128_1_0_0_1_n_n 256 rfl rfl).symm k) = ix2 k q := funext fun ax => Fin.ext (by
    match ax with
    | ⟨0, _⟩ => exact (rhs_second_0 _ _).trans hk
    | ⟨1, _⟩ => exact rhs_second_1 _ _)
  rw [el, er]

/-! ## The stored tile at an entry -/

/-- Entry `(p, q)` of what the body stores: output unit `q` over hidden units that are the positive part of the two
    half products of row `p` plus the bias row. -/
theorem tile_apply (v0 v2 : Vec Ideal S2000x128 .f32) (v5 v8 : Vec Ideal S128x256 .f32) (v14 : Vec Ideal S1x256 .f32)
    (v21 : Vec Ideal S256x128 .f32) (v24 : Vec Ideal S1x128 .f32) (p : Fin 2000) (q : Fin 128) :
    k0_pay1 v0 v2 v5 v8 v14 v21 v24 (ix2 p q)
      = NodeUpdate.output
          (fun k => max ((∑ a : Fin 128, v0 (ix2 p a) * v5 (ix2 a k) + ∑ a : Fin 128, v2 (ix2 p a) * v8 (ix2 a k))
            + v14 (ix2 (0 : Fin 1) k)) 0)
          (fun k j => v21 (ix2 k j)) (fun j => v24 (ix2 (0 : Fin 1) j)) q := by
  unfold k0_pay1 NodeUpdate.output
  dsimp only
  simp only [addf_apply, second_product_apply, first_product_apply, truncf_apply, maximumf_apply, broadcast_apply,
    broadcastTo_1b_ab_apply, shapeCast_self, Ideal.ofBits_def, Ideal.ofBits_zero_f32]

/-- A stored tile entry is an entry of the layer on whole arrays: if row `p` of the two loaded tiles is row `i 0` of the node
    features `X` and of the aggregated features `AGG`, the two loaded weight blocks are the upper and the lower 128 rows of
    `W1`, the loaded bias rows are `B1` and `B2` laid as rows, the second weight block is `W2`, and `q` is the column
    `i 1`, then entry `(p, q)` of the stored tile is entry `i` of `NodeUpdate.update`. -/
theorem tile_is_update (X AGG : S50000x128.Idx → EReal) (W1 : S256x256.Idx → EReal) (B1 : S256.Idx → EReal)
    (W2 : S256x128.Idx → EReal) (B2 : S128.Idx → EReal)
    (x0 x1 : Vec Ideal S2000x128 .f32) (wa wb : Vec Ideal S128x256 .f32) (b1r : Vec Ideal S1x256 .f32)
    (w2 : Vec Ideal S256x128 .f32) (b2r : Vec Ideal S1x128 .f32) (p : Fin 2000) (q : Fin 128) (i : S50000x128.Idx)
    (h0 : ∀ a : Fin 128, x0 (ix2 p a) = X (ix2 (i 0) a)) (h1 : ∀ a : Fin 128, x1 (ix2 p a) = AGG (ix2 (i 0) a))
    (h2 : ∀ (a : Fin 128) (k : Fin 256), wa (ix2 a k) = W1 (ix2 (Fin.castAdd 128 a) k))
    (h3 : ∀ (a : Fin 128) (k : Fin 256), wb (ix2 a k) = W1 (ix2 (Fin.natAdd 128 a) k))
    (h4 : ∀ k : Fin 256, b1r (ix2 (0 : Fin 1) k) = B1 (ix1 k))
    (h5 : ∀ (k : Fin 256) (j : Fin 128), w2 (ix2 k j) = W2 (ix2 k j))
    (h6 : ∀ j : Fin 128, b2r (ix2 (0 : Fin 1) j) = B2 (ix1 j)) (hq : i 1 = q) :
    k0_pay1 x0 x1 wa wb b1r w2 b2r (ix2 p q) = NodeUpdate.update X AGG W1 B1 W2 B2 i := by
  rw [tile_apply]
  unfold NodeUpdate.update NodeUpdate.hidden
  simp only [h0, h1, h2, h3, h4, h5, h6, hq]

end Cert.KernelIdeal.Tile

end
-- ==== Proof.EntryArrays.lean ====
/-
  What the arrays the kernel's windows stage hold when the region is entered.

  Five of the eight windows stage arrays that host operations of @main wrote before the call:
    * the aggregated edge features: the scatter-add of the edge rows onto their destination nodes, divided row by row
      by `max (number of incoming edges) 1` — the very operations, in the very order, with which the reference
      computes its own aggregate, so the array is stated as the reference's stage for it: its value is never needed;
    * the rows `0 … 127` and the rows `128 … 255` of the first weight matrix, two slices along the row axis;
    * the two bias vectors recast as one-row matrices.
  Each is then read at an index of the argument array it came from: row `a` of the upper slice is row `a` of the weight
  matrix, row `a` of the lower slice is row `128 + a`, and entry `(0, k)` of a recast bias is entry `k` of the vector.
-/
import proofs.«135868_j62921270886987_1_alg».proof.Proof.Gen.KernelIdeal.Frame
import proofs.«135868_j62921270886987_1_alg».proof.Proof.Gen.ReferenceIdeal.Read
import Idealize.ShloMosaic.Lib.StableHlo.Run
import Idealize.ShloMosaic.Lib.ValueIdx
import Idealize.ShloMosaic.Lib.ValueLayout

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-! ## The arrays as terms of the arguments -/

/-- The aggregated edge features the region finds are the reference's aggregate of the same two arguments. -/
theorem agg_eq (c : Dev nD) :
    (V m c main_v13 : S50000x128.Idx → EReal)
      = Cert.ReferenceIdeal.Read.val_main_v13 (F := Ideal) (m ((c : Thread nD τ).loc main_arg1)) (m ((c : Thread nD τ).loc main_arg2)) := by
  dsimp only [V, hostOps0]; after_results <;> rfl

/-- The upper half of the first weight matrix: its rows from 0. -/
theorem upper_eq (c : Dev nD) :
    (V m c main_v14 : S128x256.Idx → EReal)
      = extractStridedSlice S128x256 ![0, 0] (m ((c : Thread nD τ).loc main_arg3)) slices_S256x256_S128x256_0_0 := by
  dsimp only [V, hostOps0]; after_results <;> rfl

/-- The lower half of the first weight matrix: its rows from 128. -/
theorem lower_eq (c : Dev nD) :
    (V m c main_v15 : S128x256.Idx → EReal)
      = extractStridedSlice S128x256 ![128, 0] (m ((c : Thread nD τ).loc main_arg3)) slices_S256x256_S128x256_128_0 := by
  dsimp only [V, hostOps0]; after_results <;> rfl

/-- The first bias as a one-row matrix. -/
theorem bias1_eq (c : Dev nD) :
    (V m c main_v16 : S1x256.Idx → EReal) = shapeCast S1x256 (m ((c : Thread nD τ).loc main_arg4)) shapeCasts_S256_S1x256 := by
  dsimp only [V, hostOps0]; after_results <;> rfl

/-- The second bias as a one-row matrix. -/
theorem bias2_eq (c : Dev nD) :
    (V m c main_v17 : S1x128.Idx → EReal) = shapeCast S1x128 (m ((c : Thread nD τ).loc main_arg6)) shapeCasts_S128_S1x128 := by
  dsimp only [V, hostOps0]; after_results <;> rfl

/-! ## The same, read at an index -/

/-- Row `a` of the upper half is row `a` of the weight matrix. -/
theorem upper_apply (c : Dev nD) (a : Fin 128) (k : Fin 256) :
    (V m c main_v14 : S128x256.Idx → EReal) (ix2 a k) = m ((c : Thread nD τ).loc main_arg3) (ix2 (Fin.castAdd 128 a) k) :=
  (congrFun (upper_eq m c) (ix2 a k)).trans
    (slice2_axis0_apply 0 _ slices_S256x256_S128x256_0_0 a k (Fin.castAdd 128 a) (by simp))

/-- Row `a` of the lower half is row `128 + a` of the weight matrix. -/
theorem lower_apply (c : Dev nD) (a : Fin 128) (k : Fin 256) :
    (V m c main_v15 : S128x256.Idx → EReal) (ix2 a k) = m ((c : Thread nD τ).loc main_arg3) (ix2 (Fin.natAdd 128 a) k) :=
  (congrFun (lower_eq m c) (ix2 a k)).trans
    (slice2_axis0_apply 128 _ slices_S256x256_S128x256_128_0 a k (Fin.natAdd 128 a) (Fin.coe_natAdd 128 a))

/-- Entry `(0, k)` of the recast first bias is entry `k` of the vector. -/
theorem bias1_apply (c : Dev nD) (k : Fin 256) :
    (V m c main_v16 : S1x256.Idx → EReal) (ix2 (0 : Fin 1) k) = m ((c : Thread nD τ).loc main_arg4) (ix1 k) :=
  (congrFun (bias1_eq m c) (ix2 (0 : Fin 1) k)).trans (shapeCast_a_1a_apply _ shapeCasts_S256_S1x256 0 k)

/-- Entry `(0, j)` of the recast second bias is entry `j` of the vector. -/
theorem bias2_apply (c : Dev nD) (j : Fin 128) :
    (V m c main_v17 : S1x128.Idx → EReal) (ix2 (0 : Fin 1) j) = m ((c : Thread nD τ).loc main_arg6) (ix1 j) :=
  (congrFun (bias2_eq m c) (ix2 (0 : Fin 1) j)).trans (shapeCast_a_1a_apply _ shapeCasts_S128_S1x128 0 j)

end Cert.KernelIdeal.Entry

end
-- ==== Proof.Tiles.lean ====
/-
  From the tiles to the whole result array of the kernel.

  The grid has 25 points; point `t` stages rows `2000·t … 2000·t + 1999` of the node features and of the aggregated
  features, stages the weight blocks and bias rows whole (their block index is `(0, 0)` at every point), runs the body,
  and writes the stored tile back to rows `2000·t … 2000·t + 1999` of the result. The 25 tiles are disjoint and fill
  the 50000 rows, so the result array is `NodeUpdate.update` of the arguments, entry by entry:
    * `index_facts`: the printed index maps, decided over the 25 points;
    * the block reads: an entry of a staged block is an entry of the argument array it came from (through the host
      operations before the region, for the five windows that stage their results);
    * `tile_eq`: what point `t` writes back is block `t` of `update` of the arguments;
    * `covered`: row `r` lies in the tile of point `r / 2000`;
    * `result_eq` and `run`: the array after the run, and the run restated with it.
-/
import proofs.«135868_j62921270886987_1_alg».proof.Proof.Gen.KernelIdeal.Value
import proofs.«135868_j62921270886987_1_alg».proof.Proof.NodeUpdate
import proofs.«135868_j62921270886987_1_alg».proof.Proof.TileBody
import proofs.«135868_j62921270886987_1_alg».proof.Proof.EntryArrays

noncomputable section

namespace Cert.KernelIdeal.Tiles

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The result array as one function of the arguments: the layer of `NodeUpdate` on the node features, the aggregate
    of the edge features onto their destination nodes (the reference's own stage for it), the two weight matrices
    and the two biases. -/
def result (c : Dev nD) : S50000x128.Idx → EReal :=
  NodeUpdate.update (m ((c : Thread nD τ).loc main_arg0))
    (Cert.ReferenceIdeal.Read.val_main_v13 (F := Ideal) (m ((c : Thread nD τ).loc main_arg1)) (m ((c : Thread nD τ).loc main_arg2)))
    (m ((c : Thread nD τ).loc main_arg3)) (m ((c : Thread nD τ).loc main_arg4))
    (m ((c : Thread nD τ).loc main_arg5)) (m ((c : Thread nD τ).loc main_arg6))

theorem origin : (![0, 0] : Fin 2 → Nat) = fun _ => 0 := funext fun a => by fin_cases a <;> rfl

/-- The printed index maps over the 25 grid points: the two row-tiled inputs move with the output, whose block index
    is `(t, 0)`; every other window stays at block `(0, 0)`. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## The staged blocks, read at an entry -/

/-- Row `p` of the node-feature tile at point `t` is row `2000·t + p` of the node features. -/
theorem own_rows (c : Dev nD) (t : Fin cfg0.N) (p : Fin 2000) (a : Fin 128) (r : Fin 50000) (hr : r.val = t.val * 2000 + p.val) :
    iblk m c 0 t (ix2 p a) = m ((c : Thread nD τ).loc main_arg0) (ix2 r a) := by
  obtain ⟨e00, e01, -⟩ := index_facts t
  show V m c main_arg0 (((cfg0.win 0).blk t).view.emb (ix2 p a)) = _
  rw [V_main_arg0]
  refine congrArg _ (funext fun ax => Fin.ext ?_)
  match ax with
  | ⟨0, _⟩ => show win0_0.index t (0 : Fin 2) * 2000 + 1 * p.val = r.val; omega
  | ⟨1, _⟩ => show win0_0.index t (1 : Fin 2) * 128 + 1 * a.val = a.val; omega

/-! Which entry of its array a window's block holds depends on the window's index map alone, so for the five windows
    whose arrays host operations wrote the block is read off an ARBITRARY array `X`, and `X` is then the array the
    region finds. -/

/-- An entry of window 1's tile at point `t`, read off any array: row `p` of the tile is row `2000·t + p`. -/
theorem read_rows1 (X : S50000x128.Idx → EReal) (t : Fin cfg0.N) (p : Fin 2000) (a : Fin 128) (r : Fin 50000)
    (hr : r.val = t.val * 2000 + p.val) :
    ((cfg0.win 1).blk t).view.read (Elt Ideal) X (ix2 p a) = X (ix2 r a) := by
  obtain ⟨-, -, e10, e11, -⟩ := index_facts t
  show X (((cfg0.win 1).blk t).view.emb (ix2 p a)) = X (ix2 r a)
  refine congrArg X (funext fun ax => Fin.ext ?_)
  match ax with
  | ⟨0, _⟩ => show win0_1.index t (0 : Fin 2) * 2000 + 1 * p.val = r.val; omega
  | ⟨1, _⟩ => show win0_1.index t (1 : Fin 2) * 128 + 1 * a.val = a.val; omega

/-- Window 2's block is its whole array at every point. -/
theorem read_whole2 (X : S128x256.Idx → EReal) (t : Fin cfg0.N) (a : Fin 128) (k : Fin 256) :
    ((cfg0.win 2).blk t).view.read (Elt Ideal) X (ix2 a k) = X (ix2 a k) := by
  obtain ⟨-, -, -, -, e20, e21, -⟩ := index_facts t
  show X (((cfg0.win 2).blk t).view.emb (ix2 a k)) = X (ix2 a k)
  refine congrArg X (funext fun ax => Fin.ext ?_)
  match ax with
  | ⟨0, _⟩ => show win0_2.index t (0 : Fin 2) * 128 + 1 * a.val = a.val; omega
  | ⟨1, _⟩ => show win0_2.index t (1 : Fin 2) * 256 + 1 * k.val = k.val; omega

/-- Window 3's block is its whole array at every point. -/
theorem read_whole3 (X : S128x256.Idx → EReal) (t : Fin cfg0.N) (a : Fin 128) (k : Fin 256) :
    ((cfg0.win 3).blk t).view.read (Elt Ideal) X (ix2 a k) = X (ix2 a k) := by
  obtain ⟨-, -, -, -, -, -, e30, e31, -⟩ := index_facts t
  show X (((cfg0.win 3).blk t).view.emb (ix2 a k)) = X (ix2 a k)
  refine congrArg X (funext fun ax => Fin.ext ?_)
  match ax with
  | ⟨0, _⟩ => show win0_3.index t (0 : Fin 2) * 128 + 1 * a.val = a.val; omega
  | ⟨1, _⟩ => show win0_3.index t (1 : Fin 2) * 256 + 1 * k.val = k.val; omega

/-- Window 5's block is its whole one-row array at every point. -/
theorem read_whole5 (X : S1x256.Idx → EReal) (t : Fin cfg0.N) (k : Fin 256) :
    ((cfg0.win 5).blk t).view.read (Elt Ideal) X (ix2 (0 : Fin 1) k) = X (ix2 (0 : Fin 1) k) := by
  obtain ⟨-, -, -, -, -, -, -, -, -, -, e50, e51, -⟩ := index_facts t
  show X (((cfg0.win 5).blk t).view.emb (ix2 (0 : Fin 1) k)) = X (ix2 (0 : Fin 1) k)
  refine congrArg X (funext fun ax => Fin.ext ?_)
  match ax with
  | ⟨0, _⟩ => show win0_5.index t (0 : Fin 2) * 1 + 1 * 0 = 0; omega
  | ⟨1, _⟩ => show win0_5.index t (1 : Fin 2) * 256 + 1 * k.val = k.val; omega

/-- Window 6's block is its whole one-row array at every point. -/
theorem read_whole6 (X : S1x128.Idx → EReal) (t : Fin cfg0.N) (j : Fin 128) :
    ((cfg0.win 6).blk t).view.read (Elt Ideal) X (ix2 (0 : Fin 1) j) = X (ix2 (0 : Fin 1) j) := by
  obtain ⟨-, -, -, -, -, -, -, -, -, -, -, -, e60, e61, -⟩ := index_facts t
  show X (((cfg0.win 6).blk t).view.emb (ix2 (0 : Fin 1) j)) = X (ix2 (0 : Fin 1) j)
  refine congrArg X (funext fun ax => Fin.ext ?_)
  match ax with
  | ⟨0, _⟩ => show win0_6.index t (0 : Fin 2) * 1 + 1 * 0 = 0; omega
  | ⟨1, _⟩ => show win0_6.index t (1 : Fin 2) * 128 + 1 * j.val = j.val; omega

/-- Row `p` of the aggregated-feature tile at point `t` is row `2000·t + p` of the aggregate. -/
theorem agg_rows (c : Dev nD) (t : Fin cfg0.N) (p : Fin 2000) (a : Fin 128) (r : Fin 50000) (hr : r.val = t.val * 2000 + p.val) :
    iblk m c 1 t (ix2 p a)
      = Cert.ReferenceIdeal.Read.val_main_v13 (F := Ideal) (m ((c : Thread nD τ).loc main_arg1)) (m ((c : Thread nD τ).loc main_arg2)) (ix2 r a) := by
  unfold iblk
  exact (read_rows1 (V m c main_v13) t p a r hr).trans (congrFun (Entry.agg_eq m c) (ix2 r a))

/-- The first staged weight block is the upper 128 rows of the first weight matrix. -/
theorem upper_block (c : Dev nD) (t : Fin cfg0.N) (a : Fin 128) (k : Fin 256) :
    iblk m c 2 t (ix2 a k) = m ((c : Thread nD τ).loc main_arg3) (ix2 (Fin.castAdd 128 a) k) := by
  unfold iblk
  exact (read_whole2 (V m c main_v14) t a k).trans (Entry.upper_apply m c a k)

/-- The second staged weight block is the lower 128 rows of the first weight matrix. -/
theorem lower_block (c : Dev nD) (t : Fin cfg0.N) (a : Fin 128) (k : Fin 256) :
    iblk m c 3 t (ix2 a k) = m ((c : Thread nD τ).loc main_arg3) (ix2 (Fin.natAdd 128 a) k) := by
  unfold iblk
  exact (read_whole3 (V m c main_v15) t a k).trans (Entry.lower_apply m c a k)

/-- The third staged weight block is the second weight matrix. -/
theorem second_block (c : Dev nD) (t : Fin cfg0.N) (k : Fin 256) (j : Fin 128) :
    iblk m c 4 t (ix2 k j) = m ((c : Thread nD τ).loc main_arg5) (ix2 k j) := by
  obtain ⟨-, -, -, -, -, -, -, -, e40, e41, -⟩ := index_facts t
  show V m c main_arg5 (((cfg0.win 4).blk t).view.emb (ix2 k j)) = _
  rw [V_main_arg5]
  refine congrArg _ (funext fun ax => Fin.ext ?_)
  match ax with
  | ⟨0, _⟩ => show win0_4.index t (0 : Fin 2) * 256 + 1 * k.val = k.val; omega
  | ⟨1, _⟩ => show win0_4.index t (1 : Fin 2) * 128 + 1 * j.val = j.val; omega

/-- The staged first bias row is the first bias vector. -/
theorem bias1_block (c : Dev nD) (t : Fin cfg0.N) (k : Fin 256) :
    iblk m c 5 t (ix2 (0 : Fin 1) k) = m ((c : Thread nD τ).loc main_arg4) (ix1 k) := by
  unfold iblk
  exact (read_whole5 (V m c main_v16) t k).trans (Entry.bias1_apply m c k)

/-- The staged second bias row is the second bias vector. -/
theorem bias2_block (c : Dev nD) (t : Fin cfg0.N) (j : Fin 128) :
    iblk m c 6 t (ix2 (0 : Fin 1) j) = m ((c : Thread nD τ).loc main_arg6) (ix1 j) := by
  unfold iblk
  exact (read_whole6 (V m c main_v17) t j).trans (Entry.bias2_apply m c j)

/-! ## What a point writes back -/

/-- A stored tile `f` is block `t` of an array `R` as soon as entry `(p, q)` of `f` is entry `(2000·t + p, q)` of `R`:
    point `t`'s output block sits at rows `2000·t …`, columns from 0. -/
theorem tile_of (R : S50000x128.Idx → EReal) (f : Vec Ideal S2000x128 .f32) (t : Fin cfg0.N)
    (h : ∀ (p : Fin 2000) (q : Fin 128) (i : S50000x128.Idx), (i 0).val = t.val * 2000 + p.val → i 1 = q → f (ix2 p q) = R i) :
    (cfg0.win 7).cut (grid0.coords t) f = ((cfg0.win 7).blk t).view.read (Elt Ideal) R := by
  obtain ⟨-, -, -, -, -, -, -, -, -, -, -, -, -, -, e70, e71⟩ := index_facts t
  funext j
  obtain ⟨p, q, rfl⟩ : ∃ (p : Fin 2000) (q : Fin 128), j = ix2 p q := ⟨j 0, j 1, eq_ix2 j⟩
  show f (ix2 p q) = R (((cfg0.win 7).blk t).view.emb (ix2 p q))
  exact h p q _ (by show win0_7.index t (0 : Fin 2) * 2000 + 1 * p.val = _; omega)
    (Fin.ext (by show win0_7.index t (1 : Fin 2) * 128 + 1 * q.val = q.val; omega))

/-- WHAT POINT `t` WRITES BACK is block `t` of `result`: rows `2000·t … 2000·t + 1999` of the layer of the arguments. -/
theorem tile_eq (c : Dev nD) (t : Fin cfg0.N) :
    (dats m 0 c).flushed 7 t = ((cfg0.win 7).blk t).view.read (Elt Ideal) (result m c) := by
  rw [Value.flushed7]
  unfold out0_7
  rw [View.canon_unit_zero origin]
  simp only [View.ld_unit_zero (S := S2000x128) origin, View.ld_unit_zero (S := S128x256) origin,
    View.ld_unit_zero (S := S1x256) origin, View.ld_unit_zero (S := S256x128) origin, View.ld_unit_zero (S := S1x128) origin]
  refine tile_of (result m c) _ t (fun p q i hrow hcol => ?_)
  unfold result
  exact Tile.tile_is_update (m ((c : Thread nD τ).loc main_arg0))
    (Cert.ReferenceIdeal.Read.val_main_v13 (F := Ideal) (m ((c : Thread nD τ).loc main_arg1)) (m ((c : Thread nD τ).loc main_arg2)))
    (m ((c : Thread nD τ).loc main_arg3)) (m ((c : Thread nD τ).loc main_arg4))
    (m ((c : Thread nD τ).loc main_arg5)) (m ((c : Thread nD τ).loc main_arg6))
    (iblk m c 0 t) (iblk m c 1 t) (iblk m c 2 t) (iblk m c 3 t) (iblk m c 5 t) (iblk m c 4 t) (iblk m c 6 t) p q i
    (fun a => own_rows m c t p a (i 0) hrow) (fun a => agg_rows m c t p a (i 0) hrow)
    (fun a k => upper_block m c t a k) (fun a k => lower_block m c t a k) (fun k => bias1_block m c t k)
    (fun k j => second_block m c t k j) (fun j => bias2_block m c t j) hcol

/-! ## The tiles fill the array -/

/-- An index of the result array is in point `t`'s tile iff each coordinate is in the tile's range on its axis. -/
theorem mem_tile (t : Fin cfg0.N) (i : S50000x128.Idx) :
    i ∈ ((cfg0.win 7).blk t).view.set ↔ ∀ a : Fin 2, win0_7.index t a * S2000x128.size a ≤ (i a).val ∧ (i a).val < win0_7.index t a * S2000x128.size a + S2000x128.size a := by
  show i ∈ ((View.whole main_v18).slice (win0_7.rect t)).set ↔ _
  rw [View.set_slice_whole, Rect.mem_set_unit]
  exact Iff.rfl

/-- Row `r` of the result lies in the tile of point `r / 2000`, which writes back. -/
theorem covered (i : S50000x128.Idx) : ∃ t : Fin cfg0.N, (cfg0.win 7).flush t = true ∧ i ∈ ((cfg0.win 7).blk t).view.set := by
  have hi0 : (i 0).val < 50000 := (i 0).isLt
  have hi1 : (i 1).val < 128 := (i 1).isLt
  have hlt : (i 0).val / 2000 < cfg0.N := lt_of_lt_of_eq (by omega : (i 0).val / 2000 < 25) N_0.symm
  obtain ⟨-, -, -, -, -, -, -, -, -, -, -, -, -, -, e70, e71⟩ := index_facts ⟨(i 0).val / 2000, hlt⟩
  refine ⟨⟨(i 0).val / 2000, hlt⟩, flush0_7 _, ?_⟩
  rw [mem_tile]
  intro a
  match a with
  | ⟨0, _⟩ =>
    show win0_7.index ⟨(i 0).val / 2000, hlt⟩ (0 : Fin 2) * 2000 ≤ (i 0).val ∧ (i 0).val < win0_7.index ⟨(i 0).val / 2000, hlt⟩ (0 : Fin 2) * 2000 + 2000
    have e : win0_7.index ⟨(i 0).val / 2000, hlt⟩ (0 : Fin 2) = (i 0).val / 2000 := e70
    omega
  | ⟨1, _⟩ =>
    show win0_7.index ⟨(i 0).val / 2000, hlt⟩ (1 : Fin 2) * 128 ≤ (i 1).val ∧ (i 1).val < win0_7.index ⟨(i 0).val / 2000, hlt⟩ (1 : Fin 2) * 128 + 128
    omega

/-- THE RESULT ARRAY after the run is the layer of the arguments. -/
theorem result_eq (c : Dev nD) : (dats m 0 c).arrAt 7 cfg0.N = result m c :=
  (dats m 0 c).arrAt_eq_of_cover 7 (result m c) (fun t _ => tile_eq m c t) covered

/-- The kernel's run with the result array named: every weakly fair execution ends with the result at `result` of
    the arguments and the arguments unchanged. -/
theorem run : θ_run defs (onTc (τ := τ) (main (F := Ideal))) ⟨m, fun _ => 0, ρ⟩ fun r => ∀ c : Dev nD,
      r.2.mem ((c : Thread nD τ).loc main_v18) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (result_eq m c), (h c).2⟩) (Value.run_blocks m ρ)

end Cert.KernelIdeal.Tiles

end
-- ==== Proof.ReferenceLayer.lean ====
/-
  The reference's result is the layer of `NodeUpdate` on its arguments.

  The reference joins each node's own features and aggregated features into one vector of 256 numbers, multiplies by
  the whole first weight matrix, adds the bias, takes the positive part, multiplies by the second weight matrix and
  adds the second bias. Read at entry `(r, j)`:
    * position `a < 128` of the joined row `r` is the node's own feature `a`, position `128 + a` its aggregated
      feature `a` (`joined_left`, `joined_right`);
    * so hidden unit `k` of row `r`, one sum over the 256 positions, is `NodeUpdate.hidden` of the two half rows — the
      sum over `Fin (128 + 128)` split in two (`NodeUpdate.hidden_of_joined`);
    * and the entry is `NodeUpdate.output` of those hidden units.
  The aggregate itself — the scatter-add of the edge rows divided by the clipped counts — is left as the stage
  `val_main_v13` it is: both programs compute it by the same operations and nothing here needs its value.
-/
import proofs.«135868_j62921270886987_1_alg».proof.Proof.Gen.ReferenceIdeal.Read
import proofs.«135868_j62921270886987_1_alg».proof.Proof.NodeUpdate
import Idealize.ShloMosaic.PureOps.Ideal.Laws
import Idealize.ShloMosaic.Lib.ValueIdx
import Idealize.ShloMosaic.Lib.Pipeline.Value

noncomputable section

open scoped BigOperators

namespace Cert.ReferenceIdeal.Layer

open Cert.ReferenceIdeal Cert.ReferenceIdeal.Gen Cert.ReferenceIdeal.Read Idealize.ShloMosaic Idealize.ShloMosaic.ValueIdx

variable (x0 : (⟨S50000x128, .f32⟩ : BufTy).Contents (Elt Ideal)) (x1 : (⟨S2x800000, .i32⟩ : BufTy).Contents (Elt Ideal))
  (x2 : (⟨S800000x128, .f32⟩ : BufTy).Contents (Elt Ideal)) (x3 : (⟨S256x256, .f32⟩ : BufTy).Contents (Elt Ideal))
  (x4 : (⟨S256, .f32⟩ : BufTy).Contents (Elt Ideal)) (x5 : (⟨S256x128, .f32⟩ : BufTy).Contents (Elt Ideal))
  (x6 : (⟨S128, .f32⟩ : BufTy).Contents (Elt Ideal))

/-- Position `a < 128` of the joined row `r` is the node's own feature `a`. -/
theorem joined_left (r : Fin 50000) (a : Fin 128) :
    val_main_v14 (F := Ideal) x0 x1 x2 (ix2 r (Fin.castAdd 128 a)) = x0 (ix2 r a) := by
  unfold val_main_v14
  exact concatenate_pair_apply_left 1 _ _ concatenates_S50000x128_S50000x128_S50000x256_d1 _ rfl (ix2 r a)
    (fun b => by match b with | ⟨0, _⟩ => rfl | ⟨1, _⟩ => rfl)

/-- Position `128 + a` of the joined row `r` is the node's aggregated feature `a`. -/
theorem joined_right (r : Fin 50000) (a : Fin 128) :
    val_main_v14 (F := Ideal) x0 x1 x2 (ix2 r (Fin.natAdd 128 a)) = val_main_v13 (F := Ideal) x1 x2 (ix2 r a) := by
  unfold val_main_v14
  exact concatenate_pair_apply_right 1 _ _ concatenates_S50000x128_S50000x128_S50000x256_d1 _ rfl rfl (ix2 r a)
    (fun b hb => by match b with | ⟨0, _⟩ => rfl | ⟨1, _⟩ => exact absurd rfl hb)
    (by show a.val + 128 = 128 + a.val; omega)

/-- Hidden unit `k` of row `r`: the positive part of the joined row against column `k` of the whole first weight matrix
    plus the bias, which is the sum of the two half rows against the upper and lower rows of that column. -/
theorem hidden_eq (r : Fin 50000) (k : Fin 256) :
    val_main_v19 (F := Ideal) x0 x1 x2 x3 x4 (ix2 r k)
      = NodeUpdate.hidden (fun a => x0 (ix2 r a)) (fun a => val_main_v13 (F := Ideal) x1 x2 (ix2 r a))
          (fun a k => x3 (ix2 a k)) (fun k => x4 (ix1 k)) k := by
  have el : ∀ a : Fin 256, lidx_main_v15 (ix2 r k) a = ix2 r a := fun a =>
    funext fun ax => Fin.ext (by match ax with | ⟨0, _⟩ => rfl | ⟨1, _⟩ => rfl)
  have er : ∀ a : Fin 256, ridx_main_v15 (ix2 r k) a = ix2 a k := fun a =>
    funext fun ax => Fin.ext (by match ax with | ⟨0, _⟩ => rfl | ⟨1, _⟩ => rfl)
  have eb : idx_main_v16 (idx_main_v17 (ix2 r k)) = ix1 k :=
    funext fun ax => Fin.ext (by match ax with | ⟨0, _⟩ => rfl)
  rw [val_main_v19_apply, val_main_v18_apply, val_main_v15_apply, val_main_v17_apply, val_main_v16_apply,
    val_main_call0_v0_apply, val_main_call0_cst_apply]
  simp only [el, er, eb, Ideal.addf_def, Ideal.maximumf_def, Ideal.ofBits_def, Ideal.ofBits_zero_f32]
  exact NodeUpdate.hidden_of_joined (fun a => x0 (ix2 r a)) (fun a => val_main_v13 (F := Ideal) x1 x2 (ix2 r a))
    (fun a k => x3 (ix2 a k)) (fun k => x4 (ix1 k)) (fun a => val_main_v14 (F := Ideal) x0 x1 x2 (ix2 r a))
    (joined_left x0 x1 x2 r) (joined_right x0 x1 x2 r) k

/-- THE REFERENCE'S RESULT, as the stage the generated run names, is the layer on its arguments with the aggregate
    the stage `val_main_v13`. -/
theorem result_eq :
    val_main_v23 (F := Ideal) x0 x1 x2 x3 x4 x5 x6
      = NodeUpdate.update x0 (val_main_v13 (F := Ideal) x1 x2) x3 x4 x5 x6 := by
  funext i
  obtain ⟨r, j, rfl⟩ : ∃ (r : Fin 50000) (j : Fin 128), i = ix2 r j := ⟨i 0, i 1, eq_ix2 i⟩
  have el : ∀ k : Fin 256, lidx_main_v20 (ix2 r j) k = ix2 r k := fun k =>
    funext fun ax => Fin.ext (by match ax with | ⟨0, _⟩ => rfl | ⟨1, _⟩ => rfl)
  have er : ∀ k : Fin 256, ridx_main_v20 (ix2 r j) k = ix2 k j := fun k =>
    funext fun ax => Fin.ext (by match ax with | ⟨0, _⟩ => rfl | ⟨1, _⟩ => rfl)
  have eb : idx_main_v21 (idx_main_v22 (ix2 r j)) = ix1 j :=
    funext fun ax => Fin.ext (by match ax with | ⟨0, _⟩ => rfl)
  rw [val_main_v23_apply, val_main_v20_apply, val_main_v22_apply, val_main_v21_apply]
  simp only [el, er, eb, hidden_eq, Ideal.addf_def]
  rfl

end Cert.ReferenceIdeal.Layer

end
-- ==== Proof.lean ====
/- A node update of a message-passing layer, computed by a tiled kernel and by a plain reference: the two agree on the
   extended reals.

   Both programs first aggregate the edge features onto their destination nodes (a scatter-add of the 800000 edge rows
   divided, row by row, by the number of incoming edges clipped below at one) by the same host operations in the same
   order. The reference then joins each node's own 128 features with its 128 aggregated features, multiplies the joined
   256-vector by the whole first weight matrix, adds a bias, takes the positive part, multiplies by the second weight
   matrix and adds a second bias. The kernel cuts the first weight matrix into its upper and lower 128 rows, walks the
   50000 nodes in 25 tiles of 2000, and per tile adds the product of the node features with the upper rows to the
   product of the aggregated features with the lower rows before the bias, the positive part and the second layer.

   On the extended reals a change of float format is the identity and a product accumulated into zero is the plain
   sum, so the only difference left is one sum over 256 positions against the sum of its two halves
   (`NodeUpdate.hidden_of_joined`: a re-indexing, true for every extended real, so the finiteness of the inputs is
   never used). Both results are `NodeUpdate.update` of the arguments: the kernel's by `Tiles.run` (the stored tile at
   an entry, the staged blocks read through the host operations before the call, the 25 tiles filling the array), the
   reference's by `Layer.result_eq` over its run read one operation at a time. The three frames are the programs' runs
   with the results dropped; nothing was rewritten when the kernel was idealized, so that claim is trivial. -/
import proofs.«135868_j62921270886987_1_alg».proof.Defs
import proofs.«135868_j62921270886987_1_alg».proof.Proof.Gen.Kernel
import proofs.«135868_j62921270886987_1_alg».proof.Proof.Gen.Kernel.Skeleton
import proofs.«135868_j62921270886987_1_alg».proof.Proof.Gen.Kernel.Launch
import proofs.«135868_j62921270886987_1_alg».proof.Proof.Gen.Kernel.Points
import proofs.«135868_j62921270886987_1_alg».proof.Proof.Gen.Kernel.Frame
import proofs.«135868_j62921270886987_1_alg».proof.Proof.Gen.KernelIdeal
import proofs.«135868_j62921270886987_1_alg».proof.Proof.Gen.KernelIdeal.Skeleton
import proofs.«135868_j62921270886987_1_alg».proof.Proof.Gen.KernelIdeal.Launch
import proofs.«135868_j62921270886987_1_alg».proof.Proof.Gen.KernelIdeal.Points
import proofs.«135868_j62921270886987_1_alg».proof.Proof.Gen.KernelIdeal.Frame
import proofs.«135868_j62921270886987_1_alg».proof.Proof.Gen.ReferenceIdeal
import proofs.«135868_j62921270886987_1_alg».proof.Proof.Gen.KernelIdeal.Value
import proofs.«135868_j62921270886987_1_alg».proof.Proof.Gen.ReferenceIdeal.Run
import proofs.«135868_j62921270886987_1_alg».proof.Proof.Gen.ReferenceIdeal.Read
import proofs.«135868_j62921270886987_1_alg».proof.Proof.Gen.Pre_finite_inputs
import proofs.«135868_j62921270886987_1_alg».proof.Proof.NodeUpdate
import proofs.«135868_j62921270886987_1_alg».proof.Proof.TileBody
import proofs.«135868_j62921270886987_1_alg».proof.Proof.EntryArrays
import proofs.«135868_j62921270886987_1_alg».proof.Proof.Tiles
import proofs.«135868_j62921270886987_1_alg».proof.Proof.ReferenceLayer
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the layer `NodeUpdate.update` of those
    arguments in their result: the kernel by its tiles, the reference by its run read at an entry. -/
theorem algebraic : Cert.algebraic_KernelIdeal_ReferenceIdeal := by
  intro m ρ m' ρ' _ hagree
  refine ⟨fun c => Cert.KernelIdeal.Tiles.result m c, Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v23_eq, Cert.ReferenceIdeal.Layer.result_eq, h0, h1, h2, h3, h4, h5, h6]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
